-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v77)) (v3 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64 .f32) (main_arg7 : FVec F S128x64 .f32) (main_arg8 : FVec F S128 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16384x128 .f32) (main_arg1 : IVec S2x262144 32) (main_arg2 : IVec S16384 32) (main_arg3 : FVec F S256x128 .f32) (main_arg4 : FVec F S256 .f32) (main_arg5 : FVec F S64x256 .f32) (main_arg6 : FVec F S64 .f32) (main_arg7 : FVec F S128x64 .f32) (main_arg8 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_arg8 main_v13 main_v16
-- ==== Kernel.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S128x256 : Shape := ⟨2, ![128, 256]⟩
abbrev S16384x256 : Shape := ⟨2, ![16384, 256]⟩
abbrev S278528x256 : Shape := ⟨2, ![278528, 256]⟩
abbrev S1x256 : Shape := ⟨2, ![1, 256]⟩
abbrev S256x64 : Shape := ⟨2, ![256, 64]⟩
abbrev S16384x64 : Shape := ⟨2, ![16384, 64]⟩
abbrev S1x64 : Shape := ⟨2, ![1, 64]⟩
abbrev S16 : Shape := ⟨1, ![16]⟩
abbrev S16384x1 : Shape := ⟨2, ![16384, 1]⟩
abbrev S16x64 : Shape := ⟨2, ![16, 64]⟩
abbrev S16x1 : Shape := ⟨2, ![16, 1]⟩
abbrev S64x128 : Shape := ⟨2, ![64, 128]⟩
abbrev S1x128 : Shape := ⟨2, ![1, 128]⟩
abbrev S16384x16384 : Shape := ⟨2, ![16384, 16384]⟩
abbrev S1024x64 : Shape := ⟨2, ![1024, 64]⟩
abbrev S2048x64 : Shape := ⟨2, ![2048, 64]⟩
abbrev S1024x2048 : Shape := ⟨2, ![1024, 2048]⟩
abbrev S64x2048 : Shape := ⟨2, ![64, 2048]⟩

abbrev nBuf : Space → Nat
  | .hbm => 109
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S16384, .i32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S128x256, .f32⟩
  | .hbm, ⟨50, _⟩ => ⟨S16384x256, .f32⟩
  | .hbm, ⟨51, _⟩ => ⟨S_, .i32⟩
  | .hbm, ⟨52, _⟩ => ⟨S278528, .i32⟩
  | .hbm, ⟨53, _⟩ => ⟨S278528, .i1⟩
  | .hbm, ⟨54, _⟩ => ⟨S_, .i32⟩
  | .hbm, ⟨55, _⟩ => ⟨S278528, .i32⟩
  | .hbm, ⟨56, _⟩ => ⟨S278528, .i32⟩
  | .hbm, ⟨57, _⟩ => ⟨S278528, .i32⟩
  | .hbm, ⟨58, _⟩ => ⟨S278528x1, .i32⟩
  | .hbm, ⟨59, _⟩ => ⟨S278528x256, .f32⟩
  | .hbm, ⟨60, _⟩ => ⟨S278528x1, .f32⟩
  | .hbm, ⟨61, _⟩ => ⟨S278528x256, .f32⟩
  | .hbm, ⟨62, _⟩ => ⟨S278528x256, .f32⟩
  | .hbm, ⟨63, _⟩ => ⟨S_, .f32⟩
  | .hbm, ⟨64, _⟩ => ⟨S16384x256, .f32⟩
  | .hbm, ⟨65, _⟩ => ⟨S278528x1, .i32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S256x64, .f32⟩
  | .hbm, ⟨74, _⟩ => ⟨S16384x64, .f32⟩
  | .hbm, ⟨75, _⟩ => ⟨S1x64, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384, .f32⟩
  | .hbm, ⟨80, _⟩ => ⟨S_, .f32⟩
  | .hbm, ⟨81, _⟩ => ⟨S16, .f32⟩
  | .hbm, ⟨82, _⟩ => ⟨S16384x1, .i32⟩
  | .hbm, ⟨83, _⟩ => ⟨S16, .f32⟩
  | .hbm, ⟨84, _⟩ => ⟨S_, .f32⟩
  | .hbm, ⟨85, _⟩ => ⟨S16x64, .f32⟩
  | .hbm, ⟨86, _⟩ => ⟨S16384x1, .i32⟩
  | .hbm, ⟨87, _⟩ => ⟨S16x64, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S16x1, .f32⟩
  | .hbm, ⟨92, _⟩ => ⟨S16x64, .f32⟩
  | .hbm, ⟨93, _⟩ => ⟨S16x64, .f32⟩
  | .hbm, ⟨94, _⟩ => ⟨S_, .i32⟩
  | .hbm, ⟨95, _⟩ => ⟨S16384, .i32⟩
  | .hbm, ⟨96, _⟩ => ⟨S16384, .i1⟩
  | .hbm, ⟨97, _⟩ => ⟨S_, .i32⟩
  | .hbm, ⟨98, _⟩ => ⟨S16384, .i32⟩
  | .hbm, ⟨99, _⟩ => ⟨S16384, .i32⟩
  | .hbm, ⟨100, _⟩ => ⟨S16384, .i32⟩
  | .hbm, ⟨101, _⟩ => ⟨S16384x1, .i32⟩
  | .hbm, ⟨102, _⟩ => ⟨S16384x64, .f32⟩
  | .hbm, ⟨103, _⟩ => ⟨S64x128, .f32⟩
  | .hbm, ⟨104, _⟩ => ⟨S16384x128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S16384x16384, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  transposes_S256x128_S128x256_1_0 : S256x128.Transposes [1, 0] S128x256
  bcast_S278528x1_S278528x256_0_1 : S278528x1.BroadcastsInDim S278528x256 (![0, 1] : Fin 2 → Fin S278528x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16 : S_.BroadcastsInDim S16 (![] : Fin 0 → Fin S16.rank)
  bcast_S16384_S16384x1_0 : S16384.BroadcastsInDim S16384x1 (![0] : Fin 1 → Fin S16384x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  inb_S1024x2048_S1024x2048_0_0 : ∀ a, (![0, 0] : Fin 2 → Nat) a + S1024x2048.size a ≤ S1024x2048.size a
  h_S1024x2048 : 0 < S1024x2048.numel
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x128_S128x256_S16384x256_1_0_0_1_n_n_wf : DotDims.WF S16384x128 S128x256 S16384x256 [1] [0] [0] [1] [] []
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1
  dot_S16384x256_S256x64_S16384x64_1_0_0_1_n_n_wf : DotDims.WF S16384x256 S256x64 S16384x64 [1] [0] [0] [1] [] []
  scatter_S16_S16384x1_S16384_n_0_0_1_wf : ScatterDims.WF S16 S16384x1 S16384 [] [0] [0] 1
  scatter_S16x64_S16384x1_S16384x64_1_0_0_1_wf : ScatterDims.WF S16x64 S16384x1 S16384x64 [1] [0] [0] 1
  gather_S16x64_S16384x1_S16384x64_1_0_n_n_0_1_164_wf : GatherDims.WF S16x64 S16384x1 S16384x64 [1] [0] [] [0] [] 1 ![1, 64]
  dot_S16384x64_S64x128_S16384x128_1_0_0_1_n_n_wf : DotDims.WF S16384x64 S64x128 S16384x128 [1] [0] [0] [1] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x16384.size a
  hwx0_2 : ∀ i : grid0.Coords, EltTy.bits .f32 = 32 ∨ (Rect.block (s := S16384x16384) S1024x2048.size (cc0_transform_2 i) (hinb0_2 i)).WholeWords (EltTy.packing .f32)

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf
def scatter_S16x64_S16384x1_S16384x64_1_0_0_1 : ScatterDims S16x64 S16384x1 S16384x64 where
  updateWindowDims := [1]
  insertedWindowDims := [0]
  scatterDimsToOperandDims := [0]
  indexVectorDim := 1
  wf := scatter_S16x64_S16384x1_S16384x64_1_0_0_1_wf
def gather_S16x64_S16384x1_S16384x64_1_0_n_n_0_1_164 : GatherDims S16x64 S16384x1 S16384x64 where
  offsetDims := [1]
  collapsedSliceDims := [0]
  operandBatchingDims := []
  startIndicesBatchingDims := []
  startIndexMap := [0]
  indexVectorDim := 1
  sliceSizes := ![1, 64]
  wf := gather_S16x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_v53) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S128x256 : Shape := ⟨2, ![128, 256]⟩
abbrev S16384x256 : Shape := ⟨2, ![16384, 256]⟩
abbrev S278528x256 : Shape := ⟨2, ![278528, 256]⟩
abbrev S1x256 : Shape := ⟨2, ![1, 256]⟩
abbrev S256x64 : Shape := ⟨2, ![256, 64]⟩
abbrev S16384x64 : Shape := ⟨2, ![16384, 64]⟩
abbrev S1x64 : Shape := ⟨2, ![1, 64]⟩
abbrev S16 : Shape := ⟨1, ![16]⟩
abbrev S16384x1 : Shape := ⟨2, ![16384, 1]⟩
abbrev S16x64 : Shape := ⟨2, ![16, 64]⟩
abbrev S16x1 : Shape := ⟨2, ![16, 1]⟩
abbrev S64x128 : Shape := ⟨2, ![64, 128]⟩
abbrev S1x128 : Shape := ⟨2, ![1, 128]⟩
abbrev S64x16384 : Shape := ⟨2, ![64, 16384]⟩
abbrev S16384x16384 : Shape := ⟨2, ![16384, 16384]⟩

abbrev nBuf : Space → Nat
  | .hbm => 118
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S16384, .i32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S128x256, .f32⟩
  | .hbm, ⟨50, _⟩ => ⟨S16384x256, .f32⟩
  | .hbm, ⟨51, _⟩ => ⟨S_, .i32⟩
  | .hbm, ⟨52, _⟩ => ⟨S278528, .i32⟩
  | .hbm, ⟨53, _⟩ => ⟨S278528, .i1⟩
  | .hbm, ⟨54, _⟩ => ⟨S_, .i32⟩
  | .hbm, ⟨55, _⟩ => ⟨S278528, .i32⟩
  | .hbm, ⟨56, _⟩ => ⟨S278528, .i32⟩
  | .hbm, ⟨57, _⟩ => ⟨S278528, .i32⟩
  | .hbm, ⟨58, _⟩ => ⟨S278528x1, .i32⟩
  | .hbm, ⟨59, _⟩ => ⟨S278528x256, .f32⟩
  | .hbm, ⟨60, _⟩ => ⟨S278528x1, .f32⟩
  | .hbm, ⟨61, _⟩ => ⟨S278528x256, .f32⟩
  | .hbm, ⟨62, _⟩ => ⟨S278528x256, .f32⟩
  | .hbm, ⟨63, _⟩ => ⟨S_, .f32⟩
  | .hbm, ⟨64, _⟩ => ⟨S16384x256, .f32⟩
  | .hbm, ⟨65, _⟩ => ⟨S278528x1, .i32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S256x64, .f32⟩
  | .hbm, ⟨74, _⟩ => ⟨S16384x64, .f32⟩
  | .hbm, ⟨75, _⟩ => ⟨S1x64, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384, .f32⟩
  | .hbm, ⟨80, _⟩ => ⟨S_, .f32⟩
  | .hbm, ⟨81, _⟩ => ⟨S16, .f32⟩
  | .hbm, ⟨82, _⟩ => ⟨S16384x1, .i32⟩
  | .hbm, ⟨83, _⟩ => ⟨S16, .f32⟩
  | .hbm, ⟨84, _⟩ => ⟨S_, .f32⟩
  | .hbm, ⟨85, _⟩ => ⟨S16x64, .f32⟩
  | .hbm, ⟨86, _⟩ => ⟨S16384x1, .i32⟩
  | .hbm, ⟨87, _⟩ => ⟨S16x64, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S16x1, .f32⟩
  | .hbm, ⟨92, _⟩ => ⟨S16x64, .f32⟩
  | .hbm, ⟨93, _⟩ => ⟨S16x64, .f32⟩
  | .hbm, ⟨94, _⟩ => ⟨S_, .i32⟩
  | .hbm, ⟨95, _⟩ => ⟨S16384, .i32⟩
  | .hbm, ⟨96, _⟩ => ⟨S16384, .i1⟩
  | .hbm, ⟨97, _⟩ => ⟨S_, .i32⟩
  | .hbm, ⟨98, _⟩ => ⟨S16384, .i32⟩
  | .hbm, ⟨99, _⟩ => ⟨S16384, .i32⟩
  | .hbm, ⟨100, _⟩ => ⟨S16384, .i32⟩
  | .hbm, ⟨101, _⟩ => ⟨S16384x1, .i32⟩
  | .hbm, ⟨102, _⟩ => ⟨S16384x64, .f32⟩
  | .hbm, ⟨103, _⟩ => ⟨S64x128, .f32⟩
  | .hbm, ⟨104, _⟩ => ⟨S16384x128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S64x16384, .f32⟩
  | .hbm, ⟨109, _⟩ => ⟨S16384x16384, .f32⟩
  | .hbm, ⟨110, _⟩ => ⟨S16384x16384, .f32⟩
  | .hbm, ⟨111, _⟩ => ⟨S16384x16384, .f32⟩
  | .hbm, ⟨112, _⟩ => ⟨S_, .f32⟩
  | .hbm, ⟨113, _⟩ => ⟨S16384x16384, .f32⟩
  | .hbm, ⟨114, _⟩ => ⟨S16384x16384, .f32⟩
  | .hbm, ⟨115, _⟩ => ⟨S_, .f32⟩
  | .hbm, ⟨116, _⟩ => ⟨S16384x16384, .f32⟩
  | .hbm, ⟨117, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  transposes_S256x128_S128x256_1_0 : S256x128.Transposes [1, 0] S128x256
  bcast_S278528x1_S278528x256_0_1 : S278528x1.BroadcastsInDim S278528x256 (![0, 1] : Fin 2 → Fin S278528x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16 : S_.BroadcastsInDim S16 (![] : Fin 0 → Fin S16.rank)
  bcast_S16384_S16384x1_0 : S16384.BroadcastsInDim S16384x1 (![0] : Fin 1 → Fin S16384x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x64_S64x16384_1_0 : S16384x64.Transposes [1, 0] S64x16384
  bcast_S_S16384x16384 : S_.BroadcastsInDim S16384x16384 (![] : Fin 0 → Fin S16384x16384.rank)
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x128_S128x256_S16384x256_1_0_0_1_n_n_wf : DotDims.WF S16384x128 S128x256 S16384x256 [1] [0] [0] [1] [] []
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1
  dot_S16384x256_S256x64_S16384x64_1_0_0_1_n_n_wf : DotDims.WF S16384x256 S256x64 S16384x64 [1] [0] [0] [1] [] []
  scatter_S16_S16384x1_S16384_n_0_0_1_wf : ScatterDims.WF S16 S16384x1 S16384 [] [0] [0] 1
  scatter_S16x64_S16384x1_S16384x64_1_0_0_1_wf : ScatterDims.WF S16x64 S16384x1 S16384x64 [1] [0] [0] 1
  gather_S16x64_S16384x1_S16384x64_1_0_n_n_0_1_164_wf : GatherDims.WF S16x64 S16384x1 S16384x64 [1] [0] [] [0] [] 1 ![1, 64]
  dot_S16384x64_S64x128_S16384x128_1_0_0_1_n_n_wf : DotDims.WF S16384x64 S64x128 S16384x128 [1] [0] [0] [1] [] []
  dot_S16384x64_S64x16384_S16384x16384_1_0_0_1_n_n_wf : DotDims.WF S16384x64 S64x16384 S16384x16384 [1] [0] [0] [1] [] []

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf
def scatter_S16x64_S16384x1_S16384x64_1_0_0_1 : ScatterDims S16x64 S16384x1 S16384x64 where
  updateWindowDims := [1]
  insertedWindowDims := [0]
  scatterDimsToOperandDims := [0]
  indexVectorDim := 1
  wf := scatter_S16x64_S16384x1_S16384x64_1_0_0_1_wf
def gather_S16x64_S16384x1_S16384x64_1_0_n_n_0_1_164 : GatherDims S16x64 S16384x1 S16384x64 where
  offsetDims := [1]
  collapsedSliceDims := [0]
  operandBatchingDims := []
  startIndicesBatchingDims := []
  startIndexMap := [0]
  indexVectorDim := 1
  sliceSizes := ![1, 64]
  wf := gather_S16x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.Main.lean ====
/-
  @main up to its one kernel region: five stretches of host operations (the graph convolution, the pooling and the
  decoder, ninety-nine operations in all) and then the region. `V m c` names what core `c`'s arrays hold when the
  region is entered: the launch memory folded through those operations. No operation writes an argument array, so
  the region finds the nine arguments as launched.
-/
import proofs.«166503_j66305705116124_1_alg».proof.Proof.Gen.Kernel.Launch
import proofs.«166503_j66305705116124_1_alg».proof.Proof.Gen.Kernel.Skeleton
import proofs.«166503_j66305705116124_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s arrays when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main reduces to the region holding the arrays at `V`: the stretches run one after the other over the core's
    unscoped buffers. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer no host operation writes is found as launched. -/
theorem V_of_unwritten (c : Dev nD) (b : Ref sig .tc)
    (h : (List.flatten [hostOps0 (F := F), hostOps0_1, hostOps0_2, hostOps0_3, hostOps0_4]).Forall fun op => Proc.devRef .tc b ∉ op.writes) :
    V m c b = m ((c : Thread nD τ).loc b) :=
  StableHlo.after_of_forall_not_mem (b := Proc.devRef .tc b) _ _ (List.forall_iff_forall_mem.mp h)

/-- No host operation writes `main_arg0`. -/
theorem V_main_arg0 (c : Dev nD) : V m c main_arg0 = m ((c : Thread nD τ).loc main_arg0) :=
  V_of_unwritten m c main_arg0 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg1`. -/
theorem V_main_arg1 (c : Dev nD) : V m c main_arg1 = m ((c : Thread nD τ).loc main_arg1) :=
  V_of_unwritten m c main_arg1 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg2`. -/
theorem V_main_arg2 (c : Dev nD) : V m c main_arg2 = m ((c : Thread nD τ).loc main_arg2) :=
  V_of_unwritten m c main_arg2 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg3`. -/
theorem V_main_arg3 (c : Dev nD) : V m c main_arg3 = m ((c : Thread nD τ).loc main_arg3) :=
  V_of_unwritten m c main_arg3 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg4`. -/
theorem V_main_arg4 (c : Dev nD) : V m c main_arg4 = m ((c : Thread nD τ).loc main_arg4) :=
  V_of_unwritten m c main_arg4 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg5`. -/
theorem V_main_arg5 (c : Dev nD) : V m c main_arg5 = m ((c : Thread nD τ).loc main_arg5) :=
  V_of_unwritten m c main_arg5 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg6`. -/
theorem V_main_arg6 (c : Dev nD) : V m c main_arg6 = m ((c : Thread nD τ).loc main_arg6) :=
  V_of_unwritten m c main_arg6 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg7`. -/
theorem V_main_arg7 (c : Dev nD) : V m c main_arg7 = m ((c : Thread nD τ).loc main_arg7) :=
  V_of_unwritten m c main_arg7 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg8`. -/
theorem V_main_arg8 (c : Dev nD) : V m c main_arg8 = m ((c : Thread nD τ).loc main_arg8) :=
  V_of_unwritten m c main_arg8 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.Kernel.Hand

end
-- ==== Proof.K.Body.lean ====
/-
  The kernel region's proof data and its body obligation. At grid point `t = (i, j)` the body loads the `i`-th block of
  1024 rows of the embedding and the `j`-th block of 2048 rows of the SAME array, and stores into the (i, j) block of the
  result one value: the logistic of the product of the first block with the transpose of the second. It also loads the
  result's staging buffer and drops what it read. Both input windows stage the one embedding array, so the array's full
  share is dealt between them, the left half to the first window and the right half to the second; the result's array is
  held whole. The body touches its three staging buffers only; the invariant is the core's other scoped buffers (none),
  passed through unread.
-/
import proofs.«166503_j66305705116124_1_alg».proof.Proof.K.Main

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current staging buffer holds its block at every point, fetched there or not (its block
    index moves only every eighth point): for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole staging buffer -/

abbrev r0_0 : Rect S1024x64 := Rect.unit (s := S1024x64) ![0, 0] S1024x64.size inb_S1024x64_S1024x64_0_0
abbrev r0_1 : Rect S2048x64 := Rect.unit (s := S2048x64) ![0, 0] S2048x64.size inb_S2048x64_S2048x64_0_0
abbrev r0_2 : Rect S1024x2048 := Rect.unit (s := S1024x2048) ![0, 0] S1024x2048.size inb_S1024x2048_S1024x2048_0_0

/-- What the body leaves in the result window's staging buffer, from the two input blocks: its one store, of the
    payload over the two loaded blocks. -/
def out0_2 (x0 : Vec F S1024x64 .f32) (x1 : Vec F S2048x64 .f32) : Vec F S1024x2048 .f32 :=
  View.canon [⟨r0_2, k0_pay1 (View.ld x0 r0_0) (View.ld x1 r0_1)⟩]

/-- The one store covers the buffer. -/
theorem cover0_2 (p0 : Vec F S1024x2048 .f32) (y : S1024x2048.Idx) :
    ∃ pc ∈ ([⟨r0_2, p0⟩] : List (View.Piece (Elt F) S1024x2048 .f32)), y ∈ pc.1.set :=
  View.cover_of_tiled [⟨r0_2, p0⟩] S1024x2048.size (by rfl) y

/-! ## The body's triple -/

set_option maxHeartbeats 1000000 in
/-- The kernel body on whole staging memrefs, the inputs' at contents `x0`, `x1` and the result's at anything, runs to
    the continuation holding the inputs' as they were and the result's at `out0_2 x0 x1`. -/
theorem sound_kernel (c : Dev nD) (E : Set ℕ) (i : grid0.Coords) (arg2 : Memref sig .tc .vmem S1024x64 .f32) (harg2 : arg2.IsWhole)
    (arg3 : Memref sig .tc .vmem S2048x64 .f32) (harg3 : arg3.IsWhole) (arg4 : Memref sig .tc .vmem S1024x2048 .f32) (harg4 : arg4.IsWhole)
    (x0 : Vec F S1024x64 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__abat_kernel i arg2 harg2 arg3 harg3 arg4 harg4) K := by
  simp only [cc0__abat_kernel_eq_skeleton]; unfold cc0__abat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the result's at `out0_2` of the two input blocks; the invariant the core's
    scoped buffers that are no staging buffer; nothing owed; the embedding array's share halved between the two
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The run of the whole program, and its frame. The launch hands the region the two buffers behind the three windows'
  arrays, each whole: the embedding's is split in two halves, one for each window that reads it, and the result's goes to
  the window that writes it. Every other array of @main bypasses the region and is read back at the end as the region
  found it; the arguments among them are as launched. The run's post names every array the pipeline stages at what the
  library computes from the proof data and every bypassing array at its contents on entry.
-/
import proofs.«166503_j66305705116124_1_alg».proof.Proof.K.Body
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one rounds algebra, for the pipeline's staging cells. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- Three windows, two buffers: the embedding and the result. -/
theorem arr_image : Finset.univ.image (Pipeline.arrRef spec0) = {main_v53, main_v78} := by decide

/-- Each window's share of its array at entry, spelt out. -/
theorem arr0_eq (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_v53 ↦[Finset.univ]{fullShare.left} V m c main_v53) := by
  rw [(arr_whole0 0).set_eq_univ]; rfl
theorem arr1_eq (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_v53 ↦[Finset.univ]{fullShare.right} V m c main_v53) := by
  rw [(arr_whole0 1).set_eq_univ]; rfl
theorem arr2_eq (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_v78 ↦[Finset.univ]{fullShare} V m c main_v78) := by
  rw [(arr_whole0 2).set_eq_univ]; rfl

/-- The two buffers, whole, make the three windows' arrays at entry: the embedding's full share is its left half and
    its right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_W0, bigSep_insert (by decide), bigSep_singleton, arr0_eq, arr1_eq, arr2_eq]
  exact (Idealize.SL.BI.sep_mono_l (pointsTo_share (PosShare.mem_left_op_right fullShare)).1).trans Idealize.SL.BI.sep_assoc

set_option maxHeartbeats 4000000 in
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => Idealize.SL.BI.emp_sep.2)
    (hin := fun c => Idealize.SL.BI.emp_sep.1)
    (hout := fun c => Idealize.SL.BI.emp_sep.2)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- THE FRAME: every weakly fair execution terminates, nothing faults, and the nine argument arrays end as launched —
    none is an array of the pipeline, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Kernel.Hand

end
-- ==== Proof.KI.Main.lean ====
/-
  @main up to its one kernel region: five stretches of host operations (the graph convolution, the pooling and the
  decoder, ninety-nine operations in all) and then the region. `V m c` names what core `c`'s arrays hold when the
  region is entered: the launch memory folded through those operations. No operation writes an argument array, so
  the region finds the nine arguments as launched.
-/
import proofs.«166503_j66305705116124_1_alg».proof.Proof.Gen.KernelIdeal.Launch
import proofs.«166503_j66305705116124_1_alg».proof.Proof.Gen.KernelIdeal.Skeleton
import proofs.«166503_j66305705116124_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s arrays when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main reduces to the region holding the arrays at `V`: the stretches run one after the other over the core's
    unscoped buffers. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer no host operation writes is found as launched. -/
theorem V_of_unwritten (c : Dev nD) (b : Ref sig .tc)
    (h : (List.flatten [hostOps0 (F := F), hostOps0_1, hostOps0_2, hostOps0_3, hostOps0_4]).Forall fun op => Proc.devRef .tc b ∉ op.writes) :
    V m c b = m ((c : Thread nD τ).loc b) :=
  StableHlo.after_of_forall_not_mem (b := Proc.devRef .tc b) _ _ (List.forall_iff_forall_mem.mp h)

/-- No host operation writes `main_arg0`. -/
theorem V_main_arg0 (c : Dev nD) : V m c main_arg0 = m ((c : Thread nD τ).loc main_arg0) :=
  V_of_unwritten m c main_arg0 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg1`. -/
theorem V_main_arg1 (c : Dev nD) : V m c main_arg1 = m ((c : Thread nD τ).loc main_arg1) :=
  V_of_unwritten m c main_arg1 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg2`. -/
theorem V_main_arg2 (c : Dev nD) : V m c main_arg2 = m ((c : Thread nD τ).loc main_arg2) :=
  V_of_unwritten m c main_arg2 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg3`. -/
theorem V_main_arg3 (c : Dev nD) : V m c main_arg3 = m ((c : Thread nD τ).loc main_arg3) :=
  V_of_unwritten m c main_arg3 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg4`. -/
theorem V_main_arg4 (c : Dev nD) : V m c main_arg4 = m ((c : Thread nD τ).loc main_arg4) :=
  V_of_unwritten m c main_arg4 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg5`. -/
theorem V_main_arg5 (c : Dev nD) : V m c main_arg5 = m ((c : Thread nD τ).loc main_arg5) :=
  V_of_unwritten m c main_arg5 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg6`. -/
theorem V_main_arg6 (c : Dev nD) : V m c main_arg6 = m ((c : Thread nD τ).loc main_arg6) :=
  V_of_unwritten m c main_arg6 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg7`. -/
theorem V_main_arg7 (c : Dev nD) : V m c main_arg7 = m ((c : Thread nD τ).loc main_arg7) :=
  V_of_unwritten m c main_arg7 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation writes `main_arg8`. -/
theorem V_main_arg8 (c : Dev nD) : V m c main_arg8 = m ((c : Thread nD τ).loc main_arg8) :=
  V_of_unwritten m c main_arg8 (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

end Cert.KernelIdeal.Hand

end
-- ==== Proof.KI.Body.lean ====
/-
  The kernel region's proof data and its body obligation. At grid point `t = (i, j)` the body loads the `i`-th block of
  1024 rows of the embedding and the `j`-th block of 2048 rows of the SAME array, and stores into the (i, j) block of the
  result one value: the logistic of the product of the first block with the transpose of the second. It also loads the
  result's staging buffer and drops what it read. Both input windows stage the one embedding array, so the array's full
  share is dealt between them, the left half to the first window and the right half to the second; the result's array is
  held whole. The body touches its three staging buffers only; the invariant is the core's other scoped buffers (none),
  passed through unread.
-/
import proofs.«166503_j66305705116124_1_alg».proof.Proof.KI.Main

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current staging buffer holds its block at every point, fetched there or not (its block
    index moves only every eighth point): for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole staging buffer -/

abbrev r0_0 : Rect S1024x64 := Rect.unit (s := S1024x64) ![0, 0] S1024x64.size inb_S1024x64_S1024x64_0_0
abbrev r0_1 : Rect S2048x64 := Rect.unit (s := S2048x64) ![0, 0] S2048x64.size inb_S2048x64_S2048x64_0_0
abbrev r0_2 : Rect S1024x2048 := Rect.unit (s := S1024x2048) ![0, 0] S1024x2048.size inb_S1024x2048_S1024x2048_0_0

/-- What the body leaves in the result window's staging buffer, from the two input blocks: its one store, of the
    payload over the two loaded blocks. -/
def out0_2 (x0 : Vec F S1024x64 .f32) (x1 : Vec F S2048x64 .f32) : Vec F S1024x2048 .f32 :=
  View.canon [⟨r0_2, k0_pay1 (View.ld x0 r0_0) (View.ld x1 r0_1)⟩]

/-- The one store covers the buffer. -/
theorem cover0_2 (p0 : Vec F S1024x2048 .f32) (y : S1024x2048.Idx) :
    ∃ pc ∈ ([⟨r0_2, p0⟩] : List (View.Piece (Elt F) S1024x2048 .f32)), y ∈ pc.1.set :=
  View.cover_of_tiled [⟨r0_2, p0⟩] S1024x2048.size (by rfl) y

/-! ## The body's triple -/

set_option maxHeartbeats 1000000 in
/-- The kernel body on whole staging memrefs, the inputs' at contents `x0`, `x1` and the result's at anything, runs to
    the continuation holding the inputs' as they were and the result's at `out0_2 x0 x1`. -/
theorem sound_kernel (c : Dev nD) (E : Set ℕ) (i : grid0.Coords) (arg2 : Memref sig .tc .vmem S1024x64 .f32) (harg2 : arg2.IsWhole)
    (arg3 : Memref sig .tc .vmem S2048x64 .f32) (harg3 : arg3.IsWhole) (arg4 : Memref sig .tc .vmem S1024x2048 .f32) (harg4 : arg4.IsWhole)
    (x0 : Vec F S1024x64 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__abat_kernel i arg2 harg2 arg3 harg3 arg4 harg4) K := by
  simp only [cc0__abat_kernel_eq_skeleton]; unfold cc0__abat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the result's at `out0_2` of the two input blocks; the invariant the core's
    scoped buffers that are no staging buffer; nothing owed; the embedding array's share halved between the two
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of the whole program, and its frame. The launch hands the region the two buffers behind the three windows'
  arrays, each whole: the embedding's is split in two halves, one for each window that reads it, and the result's goes to
  the window that writes it. Every other array of @main bypasses the region and is read back at the end as the region
  found it; the arguments among them are as launched. The run's post names every array the pipeline stages at what the
  library computes from the proof data and every bypassing array at its contents on entry.
-/
import proofs.«166503_j66305705116124_1_alg».proof.Proof.KI.Body
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one rounds algebra, for the pipeline's staging cells. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- Three windows, two buffers: the embedding and the result. -/
theorem arr_image : Finset.univ.image (Pipeline.arrRef spec0) = {main_v53, main_v78} := by decide

/-- Each window's share of its array at entry, spelt out. -/
theorem arr0_eq (c : Dev nD) :
    ((cfg0.win 0).arr.view.loc (c.tc : Thread nD τ) ↦[(cfg0.win 0).arr.view.set]{(dats m 0 c).share 0} (dats m 0 c).arrAt 0 0 : sProp 𝕄)
      = ((c.tc : Thread nD τ).loc main_v53 ↦[Finset.univ]{fullShare.left} V m c main_v53) := by
  rw [(arr_whole0 0).set_eq_univ]; rfl
theorem arr1_eq (c : Dev nD) :
    ((cfg0.win 1).arr.view.loc (c.tc : Thread nD τ) ↦[(cfg0.win 1).arr.view.set]{(dats m 0 c).share 1} (dats m 0 c).arrAt 1 0 : sProp 𝕄)
      = ((c.tc : Thread nD τ).loc main_v53 ↦[Finset.univ]{fullShare.right} V m c main_v53) := by
  rw [(arr_whole0 1).set_eq_univ]; rfl
theorem arr2_eq (c : Dev nD) :
    ((cfg0.win 2).arr.view.loc (c.tc : Thread nD τ) ↦[(cfg0.win 2).arr.view.set]{(dats m 0 c).share 2} (dats m 0 c).arrAt 2 0 : sProp 𝕄)
      = ((c.tc : Thread nD τ).loc main_v78 ↦[Finset.univ]{fullShare} V m c main_v78) := by
  rw [(arr_whole0 2).set_eq_univ]; rfl

/-- The two buffers, whole, make the three windows' arrays at entry: the embedding's full share is its left half and
    its right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_W0, bigSep_insert (by decide), bigSep_singleton, arr0_eq, arr1_eq, arr2_eq]
  exact (Idealize.SL.BI.sep_mono_l (pointsTo_share (PosShare.mem_left_op_right fullShare)).1).trans Idealize.SL.BI.sep_assoc

set_option maxHeartbeats 4000000 in
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => Idealize.SL.BI.emp_sep.2)
    (hin := fun c => Idealize.SL.BI.emp_sep.1)
    (hout := fun c => Idealize.SL.BI.emp_sep.2)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- THE FRAME: every weakly fair execution terminates, nothing faults, and the nine argument arrays end as launched —
    none is an array of the pipeline, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.KernelIdeal.Hand

end
-- ==== Proof.Spec.lean ====
/-
  The one new array the two programs compute, as a function of the node embedding `z` (16384 rows of 64
  extended reals): entry `(p, q)` of the result is the logistic function of the inner product of rows `p`
  and `q` of `z`, that is `1 / (1 + exp (-(∑ₖ z[p,k] · z[q,k])))` on the extended reals. The kernel reaches it
  block by block (a 1024-row block against a 2048-row block, the second transposed, a matrix product into a
  zero accumulator, the logistic); the reference as one matrix product of `z` with its transpose followed by
  negate, exponential, add one, divide one by it. Commutativity and associativity are all that is used, so no
  finiteness of `z` is needed.
-/
import Idealize.ShloMosaic.PureOps.Ideal
import Idealize.ShloMosaic.Lib.ValueIdx

noncomputable section

namespace Cert.Spec

open Idealize.ShloMosaic Idealize.ShloMosaic.ValueIdx

/-- The embedding's index type and the result's. -/
abbrev ZIdx : Type := (⟨2, ![16384, 64]⟩ : Shape).Idx
abbrev AIdx : Type := (⟨2, ![16384, 16384]⟩ : Shape).Idx

/-- Entry `(p, q)`: the logistic of the inner product of rows `p` and `q`. -/
def gramAt (z : ZIdx → EReal) (p q : Fin 16384) : EReal :=
  Ideal.logistic (∑ k : Fin 64, z (ix2 p k) * z (ix2 q k))

/-- The whole array. -/
def gram (z : ZIdx → EReal) : AIdx → EReal := fun i => gramAt z (i 0) (i 1)

theorem gram_ix2 (z : ZIdx → EReal) (p q : Fin 16384) : gram z (ix2 p q) = gramAt z p q := rfl

end Cert.Spec

end
-- ==== Proof.KI.Value.lean ====
/-
  What the kernel region leaves in the result array: block (i, j) of it is written once, at grid point (i, j), with the
  logistic of the product of rows 1024·i … of the embedding with the transpose of rows 2048·j …; the 16 × 8 blocks tile
  the array, so the whole array ends at the specification's function of the embedding as the region found it.
-/
import proofs.«166503_j66305705116124_1_alg».proof.Proof.KI.Body
import proofs.«166503_j66305705116124_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand

/-! ## The body's one value at an index -/

theorem hz : (![0, 0] : Fin 2 → Nat) = fun _ => 0 := funext fun a => by fin_cases a <;> rfl

/-- The product's left operand is read at row `i 0` … -/
theorem lhs_prod_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
/-- … and at the contraction index's column; -/
theorem lhs_prod_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
/-- the right operand at the contraction index's row … -/
theorem rhs_prod_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
/-- … and column `i 1`. -/
theorem rhs_prod_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- A 1024 × 64 block times the transpose of a 2048 × 64 block, into the zero accumulator, at `(p, q)`: the inner
    product of row `p` of the first with row `q` of the second. -/
theorem prod_apply (y0 : FVec Ideal S1024x64 .bf16) (y1 : FVec Ideal S2048x64 .bf16) (p : Fin 1024) (q : Fin 2048) :
    FloatOps.matmul dot_S1024x64_S64x2048_S1024x2048_1_0_0_1_n_n none y0 (transpose S64x2048 [1, 0] y1 transposes_S2048x64_p1_0_S64x2048) (constant (F := Ideal) S1024x2048 .f32 0x00000000#32) (ix2 p q)
      = ∑ k : Fin 64, y0 (ix2 p k) * y1 (ix2 q k) := by
  rw [Ideal.matmul_constant_zero_apply, ← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 p q) ((ValueIdx.contrEquiv1 dot_S1024x64_S64x2048_S1024x2048_1_0_0_1_n_n 64 rfl rfl).symm k) = ix2 p k := funext fun a => Fin.ext (by
    match a with
    | ⟨0, _⟩ => exact lhs_prod_0 _ _
    | ⟨1, _⟩ => exact (lhs_prod_1 _ _).trans hk)
  have er : dot_S1024x64_S64x2048_S1024x2048_1_0_0_1_n_n.rhsIdx (ix2 p q) ((ValueIdx.contrEquiv1 dot_S1024x64_S64x2048_S1024x2048_1_0_0_1_n_n 64 rfl rfl).symm k) = ix2 k q := funext fun a => Fin.ext (by
    match a with
    | ⟨0, _⟩ => exact (rhs_prod_0 _ _).trans hk
    | ⟨1, _⟩ => exact rhs_prod_1 _ _)
  rw [el, er, transpose_ix2_apply]

/-- The body's value at `(p, q)`: the logistic of the inner product of row `p` of its first block with row `q` of
    its second. The format narrowing before the product is the identity on extended reals, and so is a reshape to
    the same shape. -/
theorem pay_apply (x0 : Vec Ideal S1024x64 .f32) (x1 : Vec Ideal S2048x64 .f32) (p : Fin 1024) (q : Fin 2048) :
    k0_pay1 x0 x1 (ix2 p q) = Ideal.logistic (∑ k : Fin 64, x0 (ix2 p k) * x1 (ix2 q k)) := by
  unfold k0_pay1
  dsimp only
  rw [shapeCast_self, shapeCast_self]
  show Ideal.logistic (FloatOps.matmul (F := Ideal) dot_S1024x64_S64x2048_S1024x2048_1_0_0_1_n_n none _ _ _ (ix2 p q)) = _
  rw [prod_apply]
  rfl

/-! ## From blocks to the array -/

/-- The index maps over the grid: point `t` is `(t / 8, t % 8)`; the first input window is at row block `t / 8`, the
    second at row block `t % 8` of the same array, the result window at block `(t / 8, t % 8)`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- The first input window's block at point `t`, read off an embedding `z`, is rows `1024 · (t / 8) …` of `z`. -/
theorem rows_apply (z : Cert.Spec.ZIdx → EReal) (t : Fin cfg0.N) (x : S1024x64.Idx) (k : Cert.Spec.ZIdx)
    (hk0 : (k 0).val = 1024 * (t.val / 8) + (x 0).val) (hk1 : (k 1).val = (x 1).val) :
    (((cfg0.win 0).blk t).view.read (Elt Ideal) z : Vec Ideal S1024x64 .f32) x = z k := by
  obtain ⟨e0, e1, -, -, -, -⟩ := idx_facts t
  show z (((cfg0.win 0).blk t).view.emb x) = z k
  refine congrArg z (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 64 + 1 * (x 1).val = (k 1).val; rw [e1, hk1]; omega

/-- The second input window's block at point `t` is rows `2048 · (t % 8) …` of `z`. -/
theorem cols_apply (z : Cert.Spec.ZIdx → EReal) (t : Fin cfg0.N) (x : S2048x64.Idx) (k : Cert.Spec.ZIdx)
    (hk0 : (k 0).val = 2048 * (t.val % 8) + (x 0).val) (hk1 : (k 1).val = (x 1).val) :
    (((cfg0.win 1).blk t).view.read (Elt Ideal) z : Vec Ideal S2048x64 .f32) x = z k := by
  obtain ⟨-, -, e2, e3, -, -⟩ := idx_facts t
  show z (((cfg0.win 1).blk t).view.emb x) = z k
  refine congrArg z (funext fun a => Fin.ext ?_)
  match a with
  | ⟨0, _⟩ => show win0_1.index t (0 : Fin 2) * 2048 + 1 * (x 0).val = (k 0).val; rw [e2, hk0]; omega
  | ⟨1, _⟩ => show win0_1.index t (1 : Fin 2) * 64 + 1 * (x 1).val = (k 1).val; rw [e3, hk1]; omega

/-- The result window's block at point `t`, read off a result array `g`, is rows `1024 · (t / 8) …` and columns
    `2048 · (t % 8) …` of `g`. -/
theorem tile_apply (g : Cert.Spec.AIdx → EReal) (t : Fin cfg0.N) (y : S1024x2048.Idx) (i : Cert.Spec.AIdx)
    (hi0 : (i 0).val = 1024 * (t.val / 8) + (y 0).val) (hi1 : (i 1).val = 2048 * (t.val % 8) + (y 1).val) :
    (((cfg0.win 2).blk t).view.read (Elt Ideal) g : Vec Ideal S1024x2048 .f32) y = g i := by
  obtain ⟨-, -, -, -, e4, e5⟩ := idx_facts t
  show g (((cfg0.win 2).blk t).view.emb y) = g i
  refine congrArg g (funext fun a => Fin.ext ?_)
  match a with
  | ⟨0, _⟩ => show win0_2.index t (0 : Fin 2) * 1024 + 1 * (y 0).val = (i 0).val; rw [e4, hi0]; omega
  | ⟨1, _⟩ => show win0_2.index t (1 : Fin 2) * 2048 + 1 * (y 1).val = (i 1).val; rw [e5, hi1]; omega

/-- At point `t` the body's value over the two input blocks of an embedding `z` is the result window's block of
    `Spec.gram z`. -/
theorem block_eq (z : Cert.Spec.ZIdx → EReal) (t : Fin cfg0.N) (y : S1024x2048.Idx) :
    k0_pay1 (((cfg0.win 0).blk t).view.read (Elt Ideal) z) (((cfg0.win 1).blk t).view.read (Elt Ideal) z) y
      = (((cfg0.win 2).blk t).view.read (Elt Ideal) (Cert.Spec.gram z) : Vec Ideal S1024x2048 .f32) y := by
  have ht : t.val < 128 := lt_of_lt_of_eq t.isLt N_0
  have hy0 : (y 0).val < 1024 := (y 0).isLt
  have hy1 : (y 1).val < 2048 := (y 1).isLt
  obtain ⟨p, q, rfl⟩ : ∃ (p : Fin 1024) (q : Fin 2048), y = ix2 p q := ⟨y 0, y 1, eq_ix2 y⟩
  refine (pay_apply _ _ p q).trans ?_
  refine Eq.trans ?_ (tile_apply (Cert.Spec.gram z) t (ix2 p q)
    (ix2 (⟨1024 * (t.val / 8) + p.val, by omega⟩ : Fin 16384) (⟨2048 * (t.val % 8) + q.val, by omega⟩ : Fin 16384)) rfl rfl).symm
  rw [Cert.Spec.gram_ix2]
  unfold Cert.Spec.gramAt
  refine congrArg Ideal.logistic (Finset.sum_congr rfl fun k _ => ?_)
  exact congrArg₂ (· * ·) (rows_apply z t _ _ rfl rfl) (cols_apply z t _ _ rfl rfl)

variable (m : (ℓ : Loc nD τ sig) → Buf (Elt Ideal) ℓ)

/-- What point `t` writes back is block `t` of `Spec.gram` of the embedding as the region finds it. -/
theorem flushed_eq (c : Dev nD) (t : Fin cfg0.N) :
    (dats m 0 c).flushed 2 t = ((cfg0.win 2).blk t).view.read (Elt Ideal) (Cert.Spec.gram (V m c main_v53)) := by
  show (cfg0.win 2).cut (grid0.coords t) ((dats m 0 c).after 2 t) = _
  rw [after0_2]
  unfold out0_2
  rw [View.canon_unit_zero hz]
  simp only [View.ld_unit_zero (S := S1024x64) hz, View.ld_unit_zero (S := S2048x64) hz]
  unfold iblk
  funext y
  exact block_eq (V m c main_v53) t y

/-- An index of the array is in point `t`'s block iff each coordinate is in the block's range on its axis. -/
theorem mem_blk (t : Fin cfg0.N) (i : S16384x16384.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v78).slice (win0_2.rect t)).set ↔ _
  rw [View.set_slice_whole, Rect.mem_set_unit]
  exact Iff.rfl

/-- The 16 × 8 blocks tile the array: entry `(r, s)` lies in the block of point `(r / 1024, s / 2048)`. -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  have hN : cfg0.N = 128 := N_0
  obtain ⟨n, hn⟩ : ∃ n : ℕ, n = (i 0).val / 1024 * 8 + (i 1).val / 2048 := ⟨_, rfl⟩
  have hlt : n < cfg0.N := by rw [hN]; omega
  obtain ⟨-, -, -, -, e4, e5⟩ := idx_facts ⟨n, hlt⟩
  have e4' : win0_2.index ⟨n, hlt⟩ (0 : Fin 2) = n / 8 := e4
  have e5' : win0_2.index ⟨n, hlt⟩ (1 : Fin 2) = n % 8 := e5
  refine ⟨⟨n, hlt⟩, flush0_2 _, ?_⟩
  rw [mem_blk]
  intro a
  match a with
  | ⟨0, _⟩ =>
    show win0_2.index ⟨n, hlt⟩ (0 : Fin 2) * 1024 ≤ (i 0).val ∧ (i 0).val < win0_2.index ⟨n, hlt⟩ (0 : Fin 2) * 1024 + 1024
    rw [e4']; omega
  | ⟨1, _⟩ =>
    show win0_2.index ⟨n, hlt⟩ (1 : Fin 2) * 2048 ≤ (i 1).val ∧ (i 1).val < win0_2.index ⟨n, hlt⟩ (1 : Fin 2) * 2048 + 2048
    rw [e5']; omega

/-- The result array after the last write-back is `Spec.gram` of the embedding at the region's entry. -/
theorem final78 (c : Dev nD) :
    ((dats (F := Ideal) m 0 c).arrAt 2 cfg0.N : Cert.Spec.AIdx → EReal) = Cert.Spec.gram (V (F := Ideal) m c main_v53) :=
  (dats m 0 c).arrAt_eq_of_cover 2 _ (fun t _ => flushed_eq m c t) cover

end Cert.KernelIdeal.HandValue

end
-- ==== Proof.RefTail.lean ====
/-
  The reference's fourth result is the specification's function of its first: `z · zᵀ` contracted over the 64 columns, then
  negate, exponential, add one, and one divided by that, which on the extended reals is the logistic of the inner product.

  Entry `(p, q)` of the product reads row `p` of `z` against column `q` of the transpose, and column `q` of the transpose
  is row `q` of `z`; so the contracted sum is `∑ₖ z[p,k] · z[q,k]`. The four pointwise operations after it are, lane by
  lane, `1 / (1 + exp (-x))`, and that expression is the definition of the logistic on the extended reals. The word
  `0x3F800000` is the number one.
-/
import proofs.«166503_j66305705116124_1_alg».proof.Proof.RefRead
import proofs.«166503_j66305705116124_1_alg».proof.Proof.Spec
import Idealize.ShloMosaic.Lib.IdealHost

noncomputable section

namespace Cert.ReferenceIdeal.RefTail

open Cert.ReferenceIdeal Cert.ReferenceIdeal.Gen Idealize.ShloMosaic Idealize.ShloMosaic.TcCoe Idealize.SL.Sem
open Idealize.ShloMosaic.ValueIdx

/-- Row `p`, column `k` of the left operand of the product at entry `(p, q)`. -/
theorem left_index (p q : Fin 16384) (k : Fin 64) :
    ReadP.lidx_main_v79 (ix2 p q) k = ix2 p k :=
  funext fun a => Fin.ext (by match a with | ⟨0, _⟩ => rfl | ⟨1, _⟩ => rfl)

/-- Row `k`, column `q` of the transpose is row `q`, column `k` of the array transposed. -/
theorem right_index (p q : Fin 16384) (k : Fin 64) :
    ReadP.idx_main_v78 (ReadP.ridx_main_v79 (ix2 p q) k) = ix2 q k :=
  funext fun a => Fin.ext (by match a with | ⟨0, _⟩ => rfl | ⟨1, _⟩ => rfl)

/-- The stages from the transpose to the division, as a function of the embedding stage: entry `(p, q)` is the logistic of
    the inner product of rows `p` and `q`. -/
theorem stage_eq (x0 : (⟨S16384x128, .f32⟩ : BufTy).Contents (Elt Ideal)) (x1 : (⟨S2x262144, .i32⟩ : BufTy).Contents (Elt Ideal))
    (x3 : (⟨S256x128, .f32⟩ : BufTy).Contents (Elt Ideal)) (x4 : (⟨S256, .f32⟩ : BufTy).Contents (Elt Ideal))
    (x5 : (⟨S64x256, .f32⟩ : BufTy).Contents (Elt Ideal)) (x6 : (⟨S64, .f32⟩ : BufTy).Contents (Elt Ideal)) :
    (ReadP.val_main_v85 (F := Ideal) x0 x1 x3 x4 x5 x6 : Cert.Spec.AIdx → EReal)
      = Cert.Spec.gram (ReadP.val_main_v53 (F := Ideal) x0 x1 x3 x4 x5 x6) := by
  funext i
  obtain ⟨p, q, rfl⟩ : ∃ (p : Fin 16384) (q : Fin 16384), i = ix2 p q := ⟨i 0, i 1, eq_ix2 i⟩
  rw [Cert.Spec.gram_ix2, Cert.Spec.gramAt,
    ReadP.val_main_v85_apply, ReadP.val_main_v84_apply, ReadP.val_main_cst_16_apply, ReadP.val_main_v83_apply,
    ReadP.val_main_v82_apply, ReadP.val_main_cst_15_apply, ReadP.val_main_v81_apply, ReadP.val_main_v80_apply,
    ReadP.val_main_v79_apply]
  have hsum : (∑ k : Fin 64, ReadP.val_main_v53 (F := Ideal) x0 x1 x3 x4 x5 x6 (ReadP.lidx_main_v79 (ix2 p q) k)
        * ReadP.val_main_v78 (F := Ideal) x0 x1 x3 x4 x5 x6 (ReadP.ridx_main_v79 (ix2 p q) k))
      = ∑ k : Fin 64, ReadP.val_main_v53 (F := Ideal) x0 x1 x3 x4 x5 x6 (ix2 p k)
        * ReadP.val_main_v53 (F := Ideal) x0 x1 x3 x4 x5 x6 (ix2 q k) :=
    Finset.sum_congr rfl fun k _ => by
      rw [ReadP.val_main_v78_apply, left_index, right_index]
  rw [hsum]
  generalize ReadP.val_main_v53 (F := Ideal) x0 x1 x3 x4 x5 x6 = z
  simp only [Ideal.hostDivf_def, Ideal.addf_def, Ideal.hostUnary_exp_def, Ideal.hostNegf_def, Ideal.negf_def,
    Ideal.ofBits_def, Ideal.ofBits_one_f32]
  rfl

/-- The reference's `a_hat` is `Spec.gram` of its `z_node`. -/
theorem tail_eq (m : (ℓ : Loc nD τ sig) → Buf (Elt Ideal) ℓ) (c : Dev nD) :
    (Cert.ReferenceIdeal.ValueP.res_main_v85 (F := Ideal) m c : Cert.Spec.AIdx → EReal)
      = Cert.Spec.gram (Cert.ReferenceIdeal.ValueP.res_main_v53 (F := Ideal) m c) := by
  rw [ReadP.val_main_v85_eq, ReadP.val_main_v53_eq]
  exact stage_eq _ _ _ _ _ _

end Cert.ReferenceIdeal.RefTail

end
-- ==== Proof.HostBridge.lean ====
/-
  The two programs apply the same host operations to the same arguments before they part: the embedding `z_node`, the
  pooled `z_graph` and the decoded `x_hat` are one chain of operations on both sides. From memories that agree on the nine
  arguments, what the kernel's region finds in those three arrays is what the reference's run leaves in them.

  Each array is a composition of pure array operations applied to the arguments: the graph convolution (normalised
  adjacency scatter of the projected features, bias, rectifier, second projection and bias) gives `z_node`; the
  segment mean of `z_node` over the graph index gives `z_graph`; `z_graph` gathered back to the nodes, projected and
  biased gives `x_hat`. The composition does not depend on what the floats are, so it is stated once for any float
  family and read at the ideal one. On the reference side the composition is written out as a term; on the kernel side
  it is the fold of the operations over the launch memory, read at the array each one writes. Once the reference's
  arguments are replaced by the kernel's, the two are the same term.
-/
import proofs.«166503_j66305705116124_1_alg».proof.Proof.KI.Main
import proofs.«166503_j66305705116124_1_alg».proof.Proof.RefRun
import Idealize.ShloMosaic.PureOps.Ideal

noncomputable section

namespace Cert.HostBridge

open Idealize.ShloMosaic Idealize.ShloMosaic.TcCoe Idealize.SL.Sem

/-! ## For any float family -/

section Generic

variable {F : FTy → Type} [FloatOps F]

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)))

open Cert.KernelIdeal.Gen in
include hagree in
set_option maxRecDepth 16384 in
set_option maxHeartbeats 40000000 in
/-- `z_node`: it reads the features, the edge list, and the two layers' weights and biases (arguments 0, 1, 3, 4, 5, 6). -/
theorem v53_gen (c : Dev Cert.KernelIdeal.nD) :
    Cert.ReferenceIdeal.ValueP.res_main_v53 (F := F) m' c = Cert.KernelIdeal.Hand.V (F := F) m c Cert.KernelIdeal.main_v53 := by
  obtain ⟨h0, h1, h2, h3, h4, h5, h6, h7, h8⟩ := hagree c
  unfold Cert.ReferenceIdeal.ValueP.res_main_v53
  rw [h0, h1, h3, h4, h5, h6]
  dsimp only [Cert.KernelIdeal.Hand.V]
  simp only [hostOps0, hostOps0_1, hostOps0_2, hostOps0_3, hostOps0_4, List.flatten_cons, List.flatten_nil, List.append_nil, List.cons_append, List.nil_append]
  after_results_simp
  (try simp only [StableHlo.TRef.ofBuf, StableHlo.TRef.toBuf, cast_eq])
  rfl

open Cert.KernelIdeal.Gen in
include hagree in
set_option maxRecDepth 16384 in
set_option maxHeartbeats 40000000 in
/-- `z_graph`: the mean of `z_node` over each graph's nodes; besides `z_node`'s arguments it reads the graph index (argument 2). -/
theorem v65_gen (c : Dev Cert.KernelIdeal.nD) :
    Cert.ReferenceIdeal.ValueP.res_main_v65 (F := F) m' c = Cert.KernelIdeal.Hand.V (F := F) m c Cert.KernelIdeal.main_v65 := by
  obtain ⟨h0, h1, h2, h3, h4, h5, h6, h7, h8⟩ := hagree c
  unfold Cert.ReferenceIdeal.ValueP.res_main_v65
  rw [h0, h1, h2, h3, h4, h5, h6]
  dsimp only [Cert.KernelIdeal.Hand.V]
  simp only [hostOps0, hostOps0_1, hostOps0_2, hostOps0_3, hostOps0_4, List.flatten_cons, List.flatten_nil, List.append_nil, List.cons_append, List.nil_append]
  after_results_simp
  (try simp only [StableHlo.TRef.ofBuf, StableHlo.TRef.toBuf, cast_eq])
  rfl

open Cert.KernelIdeal.Gen in
include hagree in
set_option maxRecDepth 16384 in
set_option maxHeartbeats 40000000 in
/-- `x_hat`: `z_graph` gathered back to the nodes by the graph index, then the decoder's weight and bias (arguments 7, 8): all nine arguments. -/
theorem v77_gen (c : Dev Cert.KernelIdeal.nD) :
    Cert.ReferenceIdeal.ValueP.res_main_v77 (F := F) m' c = Cert.KernelIdeal.Hand.V (F := F) m c Cert.KernelIdeal.main_v77 := by
  obtain ⟨h0, h1, h2, h3, h4, h5, h6, h7, h8⟩ := hagree c
  unfold Cert.ReferenceIdeal.ValueP.res_main_v77
  rw [h0, h1, h2, h3, h4, h5, h6, h7, h8]
  dsimp only [Cert.KernelIdeal.Hand.V]
  simp only [hostOps0, hostOps0_1, hostOps0_2, hostOps0_3, hostOps0_4, List.flatten_cons, List.flatten_nil, List.append_nil, List.cons_append, List.nil_append]
  after_results_simp
  (try simp only [StableHlo.TRef.ofBuf, StableHlo.TRef.toBuf, cast_eq])
  rfl

end Generic

/-! ## At the ideal floats -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)))

include hagree in
/-- `z_node`. -/
theorem v53_eq (c : Dev Cert.KernelIdeal.nD) :
    Cert.ReferenceIdeal.ValueP.res_main_v53 (F := Ideal) m' c = Cert.KernelIdeal.Hand.V (F := Ideal) m c Cert.KernelIdeal.main_v53 :=
  v53_gen m m' hagree c

include hagree in
/-- `z_graph`. -/
theorem v65_eq (c : Dev Cert.KernelIdeal.nD) :
    Cert.ReferenceIdeal.ValueP.res_main_v65 (F := Ideal) m' c = Cert.KernelIdeal.Hand.V (F := Ideal) m c Cert.KernelIdeal.main_v65 :=
  v65_gen m m' hagree c

include hagree in
/-- `x_hat`. -/
theorem v77_eq (c : Dev Cert.KernelIdeal.nD) :
    Cert.ReferenceIdeal.ValueP.res_main_v77 (F := Ideal) m' c = Cert.KernelIdeal.Hand.V (F := Ideal) m c Cert.KernelIdeal.main_v77 :=
  v77_gen m m' hagree c

end Cert.HostBridge

end
-- ==== Proof.lean ====
/-
  The certificate's claims, assembled.

  Both programs compute, by the same host operations on the same arguments, the node embedding `z_node` (a graph
  convolution with symmetric normalisation, a rectifier, a linear layer), its mean over each graph `z_graph`, and the
  decoded features `x_hat`; they differ only in the last result, `a_hat = logistic (z_node · z_nodeᵀ)`. The kernel computes
  it in a region of 16 × 8 grid points, block (i, j) of the result from rows 1024·i … and rows 2048·j … of the embedding
  (both windows read the one array), through a matrix product into a zero accumulator and the logistic; the reference as
  one product with the transpose followed by negate, exponential, add one, reciprocal. On the extended reals these are one
  function of the embedding (`Cert.Spec.gram`): a change of float format is the identity, both products are the same sum
  of products, and the logistic is by definition one over one plus the exponential of the negation. No law beyond that is
  used, so the precondition is never opened.

  The frames of the two kernel programs are the run of the whole program read at the argument arrays; the reference's is
  its run with the results dropped. Nothing was rewritten by the idealisation, so `preserves` is trivial.
-/
import proofs.«166503_j66305705116124_1_alg».proof.Defs
import proofs.«166503_j66305705116124_1_alg».proof.Proof.Gen.Kernel
import proofs.«166503_j66305705116124_1_alg».proof.Proof.Gen.KernelIdeal
import proofs.«166503_j66305705116124_1_alg».proof.Proof.Gen.ReferenceIdeal
import proofs.«166503_j66305705116124_1_alg».proof.Proof.Gen.Pre_finite_inputs
import proofs.«166503_j66305705116124_1_alg».proof.Proof.K.Run
import proofs.«166503_j66305705116124_1_alg».proof.Proof.KI.Run
import proofs.«166503_j66305705116124_1_alg».proof.Proof.KI.Value
import proofs.«166503_j66305705116124_1_alg».proof.Proof.RefTail
import proofs.«166503_j66305705116124_1_alg».proof.Proof.HostBridge

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

open Cert.KernelIdeal Cert.KernelIdeal.Gen Cert.KernelIdeal.Hand in
/-- The idealized kernel's run, every result named: the three host results at what the region found (the embedding is
    an input of the region and ends as it entered; the other two bypass it), the fourth at `Spec.gram` of the embedding. -/
theorem run_ki (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v53) = V m c main_v53
      ∧ r.2.mem ((c.tc : Thread nD τ).loc main_v65) = V m c main_v65
      ∧ r.2.mem ((c.tc : Thread nD τ).loc main_v77) = V m c main_v77
      ∧ r.2.mem ((c.tc : Thread nD τ).loc main_v78) = Cert.Spec.gram (V m c main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).1 0).trans (((dats m 0 c).arrAt_in 0 rfl _).trans (A_eq m c 0)),
      (h c).2 main_v65 (Pipeline.mem_restRefs_of main_v65 (by decide) (by decide)),
      (h c).2 main_v77 (Pipeline.mem_restRefs_of main_v77 (by decide) (by decide)),
      ((h c).1 2).trans (Cert.KernelIdeal.HandValue.final78 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

/-- From memories agreeing on the arguments both programs end with the same four results. -/
theorem algebraic : Cert.algebraic_KernelIdeal_ReferenceIdeal := by
  intro m ρ m' ρ' _ hagree
  refine ⟨fun c => Cert.KernelIdeal.Hand.V m c Cert.KernelIdeal.main_v53, fun c => Cert.KernelIdeal.Hand.V m c Cert.KernelIdeal.main_v65,
    fun c => Cert.KernelIdeal.Hand.V m c Cert.KernelIdeal.main_v77, fun c => Cert.Spec.gram (Cert.KernelIdeal.Hand.V m c Cert.KernelIdeal.main_v53),
    run_ki m ρ, ?_⟩
  refine (θ_run Cert.ReferenceIdeal.defs _ _).mono (fun _ h c => ⟨?_, ?_, ?_, ?_, (h c).2.2.2.2⟩) (Cert.ReferenceIdeal.ValueP.run (F := Ideal) m' ρ')
  · exact (h c).1.trans (Cert.HostBridge.v53_eq m m' hagree c)
  · exact (h c).2.1.trans (Cert.HostBridge.v65_eq m m' hagree c)
  · exact (h c).2.2.1.trans (Cert.HostBridge.v77_eq m m' hagree c)
  · exact (h c).2.2.2.1.trans ((Cert.ReferenceIdeal.RefTail.tail_eq m' c).trans (congrArg Cert.Spec.gram (Cert.HostBridge.v53_eq m m' hagree c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
